-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S384x128 : Shape := ⟨2, ![384, 128]⟩
abbrev S128 : Shape := ⟨1, ![128]⟩
abbrev S400000 : Shape := ⟨1, ![400000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S400000x128 .f32) (main_arg2 : FVec F S384x128 .f32) (main_arg3 : FVec F S128 .f32) (main_arg4 : IVec S400000 32) (main_arg5 : IVec S400000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S400000x128 : Shape := ⟨2, ![400000, 128]⟩
abbrev S384x128 : Shape := ⟨2, ![384, 128]⟩
abbrev S128 : Shape := ⟨1, ![128]⟩
abbrev S400000 : Shape := ⟨1, ![400000]⟩
abbrev S_ : Shape := ⟨0, ![]⟩
abbrev S400000x1 : Shape := ⟨2, ![400000, 1]⟩
abbrev S128x128 : Shape := ⟨2, ![128, 128]⟩
abbrev S4000x128 : Shape := ⟨2, ![4000, 128]⟩
abbrev S1x128 : Shape := ⟨2, ![1, 128]⟩

abbrev nBuf : Space → Nat
  | .hbm => 28
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S384x128, .f32⟩
  | .hbm, ⟨3, _⟩ => ⟨S128, .f32⟩
  | .hbm, ⟨4, _⟩ => ⟨S400000, .i32⟩
  | .hbm, ⟨5, _⟩ => ⟨S400000, .i32⟩
  | .hbm, ⟨6, _⟩ => ⟨S_, .i32⟩
  | .hbm, ⟨7, _⟩ => ⟨S400000, .i32⟩
  | .hbm, ⟨8, _⟩ => ⟨S400000, .i1⟩
  | .hbm, ⟨9, _⟩ => ⟨S_, .i32⟩
  | .hbm, ⟨10, _⟩ => ⟨S400000, .i32⟩
  | .hbm, ⟨11, _⟩ => ⟨S400000, .i32⟩
  | .hbm, ⟨12, _⟩ => ⟨S400000, .i32⟩
  | .hbm, ⟨13, _⟩ => ⟨S400000x1, .i32⟩
  | .hbm, ⟨14, _⟩ => ⟨S400000x128, .f32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S400000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128, .f32⟩
  | .local _ .vmem, ⟨10, _⟩ => ⟨S4000x128, .f32⟩
  | .local _ .vmem, ⟨11, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  gather_S50000x128_S400000x1_S400000x128_1_0_n_n_0_1_1128_wf : GatherDims.WF S50000x128 S400000x1 S400000x128 [1] [0] [] [0] [] 1 ![1, 128]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .f32 = 32 ∨ (Rect.block (s := S400000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .f32 = 32 ∨ (Rect.block (s := S400000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S400000x128.size a
  hwx0_2 : ∀ i : grid0.Coords, EltTy.bits .f32 = 32 ∨ (Rect.block (s := S400000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S400000x128.size a
  hwx0_7 : ∀ i : grid0.Coords, EltTy.bits .f32 = 32 ∨ (Rect.block (s := S400000x128) S4000x128.size (cc0_transform_7 i) (hinb0_7 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S384x128 : Shape := ⟨2, ![384, 128]⟩
abbrev S128 : Shape := ⟨1, ![128]⟩
abbrev S400000 : Shape := ⟨1, ![400000]⟩
abbrev S_ : Shape := ⟨0, ![]⟩
abbrev S400000x1 : Shape := ⟨2, ![400000, 1]⟩
abbrev S400000x384 : Shape := ⟨2, ![400000, 384]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S384x128, .f32⟩
  | .hbm, ⟨3, _⟩ => ⟨S128, .f32⟩
  | .hbm, ⟨4, _⟩ => ⟨S400000, .i32⟩
  | .hbm, ⟨5, _⟩ => ⟨S400000, .i32⟩
  | .hbm, ⟨6, _⟩ => ⟨S_, .i32⟩
  | .hbm, ⟨7, _⟩ => ⟨S400000, .i32⟩
  | .hbm, ⟨8, _⟩ => ⟨S400000, .i1⟩
  | .hbm, ⟨9, _⟩ => ⟨S_, .i32⟩
  | .hbm, ⟨10, _⟩ => ⟨S400000, .i32⟩
  | .hbm, ⟨11, _⟩ => ⟨S400000, .i32⟩
  | .hbm, ⟨12, _⟩ => ⟨S400000, .i32⟩
  | .hbm, ⟨13, _⟩ => ⟨S400000x1, .i32⟩
  | .hbm, ⟨14, _⟩ => ⟨S400000x128, .f32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .f32⟩
  | .hbm, ⟨24, _⟩ => ⟨S400000x384, .f32⟩
  | .hbm, ⟨25, _⟩ => ⟨S400000x128, .f32⟩
  | .hbm, ⟨26, _⟩ => ⟨S1x128, .f32⟩
  | .hbm, ⟨27, _⟩ => ⟨S400000x128, .f32⟩
  | .hbm, ⟨28, _⟩ => ⟨S400000x128, .f32⟩
  | .hbm, ⟨29, _⟩ => ⟨S_, .f32⟩
  | .hbm, ⟨30, _⟩ => ⟨S400000x128, .f32⟩
  | .hbm, ⟨31, _⟩ => ⟨S400000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  gather_S50000x128_S400000x1_S400000x128_1_0_n_n_0_1_1128_wf : GatherDims.WF S50000x128 S400000x1 S400000x128 [1] [0] [] [0] [] 1 ![1, 128]
  dot_S400000x384_S384x128_S400000x128_1_0_0_1_n_n_wf : DotDims.WF S400000x384 S384x128 S400000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf

class Facts : Prop extends Facts₀ where

variable [Facts]
-- ==== Proof.KernelBody.lean ====
/-
  The kernel body's one stored value, read at an entry (p, q) of its 4000 × 128 block, on the
  extended reals.  The three products on the matrix unit start from a zero accumulator, so each
  is the plain sum over the 128 contracted indices of a row of the left block against a column of
  the right block; the narrowing of the operands to bf16 changes nothing at exact arithmetic.  The bias
  vector is laid as one row and repeated down the 4000 rows, so at (p, q) it is its entry q.
-/
import proofs.«176621_j49572512530563_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices, axis by axis -/

theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A product into the zero accumulator at entry (p, q): row p of the left block against column q of the right. -/
theorem matmul_zero_at {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  show FloatOps.matmul dot_S4000x128_S128x128_S4000x128_1_0_0_1_n_n none l r (constant (F := Ideal) S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias, laid as one row and repeated down the rows, at entry (p, q) is its entry q. -/
theorem bias_at (x6 : Vec Ideal S128 .f32) (h₁ : S128.ShapeCasts S1x128) (h₂ : S1x128.Broadcasts S4000x128) (p : Fin 4000) (q : Fin 128) :
    broadcastTo S4000x128 (shapeCast S1x128 x6 h₁) h₂ (ix2 p q) = x6 (ix1 q) := by
  refine (broadcastTo_apply _ h₂ (ix2 p q) (ix2 (0 : Fin 1) q) (fun a => ?_)).trans ?_
  · match a with
    | ⟨0, _⟩ => exact (if_pos rfl).symm
    | ⟨1, _⟩ =>
      show q.val = if (128 : Nat) = 1 then 0 else q.val
      rw [if_neg (by decide)]
  · refine (shapeCast_addUnit_apply ![128] x6 h₁ _).trans (congrArg x6 ?_)
    funext a
    match a with
    | ⟨0, _⟩ => rfl

/-- The stored value at entry (p, q): the three row-by-column sums, the bias entry, clamped below at zero. -/
theorem payload_at (x0 x1 x2 : Vec Ideal S4000x128 .f32) (x3 x4 x5 : Vec Ideal S128x128 .f32) (x6 : Vec Ideal S128 .f32)
    (p : Fin 4000) (q : Fin 128) :
    k0_pay1 (F := Ideal) x0 x1 x2 x3 x4 x5 x6 (ix2 p q)
      = max ((∑ k : Fin 128, x0 (ix2 p k) * x3 (ix2 k q)) + (∑ k : Fin 128, x1 (ix2 p k) * x4 (ix2 k q))
          + (∑ k : Fin 128, x2 (ix2 p k) * x5 (ix2 k q)) + x6 (ix1 q)) (Ideal.ofBits .f32 0x00000000#32) := by
  unfold k0_pay1
  simp only [shapeCast_self]
  rw [maximumf_apply, addf_apply, addf_apply, addf_apply, matmul_zero_at, matmul_zero_at, matmul_zero_at, bias_at]
  rfl

end Cert.KernelIdeal.Body

end
-- ==== Proof.EdgeMlpSpec.lean ====
/-
  The function both programs compute, and the one law between their two arrangements of it.

  Per edge `r` and output feature `q`: the rows `s r`, `d r`, `e r` (source-node, destination-node and edge
  features, 128 numbers each) are laid side by side into one row of 384 numbers, multiplied by the
  384 × 128 matrix `W`, the bias `b q` is added and the result clamped below at zero.  A product with the
  side-by-side row is the sum of three products, each with one 128-row band of `W`
  (rows 0–127, 128–255, 256–383): a sum over 384 indices split into three consecutive runs of 128.
  Only commutativity and associativity of `+` are used, so the law holds on the extended reals
  with no finiteness hypothesis.
-/
import Idealize.ShloMosaic.PureOps.Ideal
import Idealize.ShloMosaic.Lib.ValueIdx
import Mathlib.Algebra.BigOperators.Fin

noncomputable section

namespace EdgeMlp

open Idealize.ShloMosaic Idealize.ShloMosaic.ValueIdx

/-- A sum over 384 consecutive indices is the sum of the sums over its three runs of 128. -/
theorem sum_three_bands {M : Type*} [AddCommMonoid M] (f : Fin 384 → M) :
    ∑ k : Fin 384, f k
      = (∑ k : Fin 128, f ⟨0 + k.val, by omega⟩) + (∑ k : Fin 128, f ⟨128 + k.val, by omega⟩)
        + ∑ k : Fin 128, f ⟨256 + k.val, by omega⟩ := by
  rw [show (∑ k : Fin 384, f k) = ∑ k : Fin (256 + 128), f k from rfl, Fin.sum_univ_add,
    show (∑ i : Fin 256, f (Fin.castAdd 128 i)) = ∑ i : Fin (128 + 128), f (Fin.castAdd 128 i) from rfl,
    Fin.sum_univ_add]
  refine congrArg₂ (· + ·) (congrArg₂ (· + ·) ?_ ?_) ?_
  · exact Finset.sum_congr rfl fun k _ => congrArg f (Fin.ext (Nat.zero_add _).symm)
  · exact Finset.sum_congr rfl fun k _ => congrArg f (Fin.ext rfl)
  · exact Finset.sum_congr rfl fun k _ => congrArg f (Fin.ext rfl)

/-- Row `r` of `x` times column `q` of the 128-row band of `W` that starts at row `o`. -/
def bandDot {R : Nat} (x : (⟨2, ![R, 128]⟩ : Shape).Idx → EReal) (W : (⟨2, ![384, 128]⟩ : Shape).Idx → EReal)
    (o : Nat) (ho : o + 128 ≤ 384) (r : Fin R) (q : Fin 128) : EReal :=
  ∑ k : Fin 128, x (ix2 r k) * W (ix2 ⟨o + k.val, by omega⟩ q)

/-- The edge update: `max ((s r · W[0:128] + d r · W[128:256]) + e r · W[256:384] + b, 0)`, entry by entry. -/
def edgeMlp {R : Nat} (s d e : (⟨2, ![R, 128]⟩ : Shape).Idx → EReal) (W : (⟨2, ![384, 128]⟩ : Shape).Idx → EReal)
    (b : (⟨1, ![128]⟩ : Shape).Idx → EReal) (r : Fin R) (q : Fin 128) : EReal :=
  max (bandDot s W 0 (by decide) r q + bandDot d W 128 (by decide) r q + bandDot e W 256 (by decide) r q + b (ix1 q))
    (Ideal.ofBits .f32 0x00000000#32)

end EdgeMlp

end
-- ==== Proof.KernelValue.lean ====
/-
  What the kernel leaves in its result array, as one function of the arrays the launch finds.

  Grid point `t` (of 100) works on rows 4000·t … 4000·t + 3999: its blocks of the two gathered
  node-feature arrays and of the edge-feature array are those 4000 rows, all 128 columns; the three
  weight blocks are the whole 128 × 128 bands of `W` (rows 0–127, 128–255, 256–383, cut out before the
  launch), and the bias block is the whole bias vector, at every point.  Entry (p, q) of the block the
  point writes back is therefore the edge update of row 4000·t + p, and the 100 blocks tile the
  400000 rows, so the whole array ends at the edge update of every row.
-/
import proofs.«176621_j49572512530563_1_alg».proof.Proof.Gen.KernelIdeal.Value
import proofs.«176621_j49572512530563_1_alg».proof.Proof.KernelBody
import proofs.«176621_j49572512530563_1_alg».proof.Proof.EdgeMlpSpec
import Idealize.ShloMosaic.Lib.ValueLayout
import Idealize.ShloMosaic.Lib.StableHlo.Run

set_option maxRecDepth 16384

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the launch finds -/

/-- The gathered source-node rows, destination-node rows, the edge rows, `W` and the bias, at the launch. -/
abbrev srcRows (c : Dev nD) : S400000x128.Idx → EReal := V m c main_v6
abbrev dstRows (c : Dev nD) : S400000x128.Idx → EReal := V m c main_v13
abbrev edgeRows (c : Dev nD) : S400000x128.Idx → EReal := V m c main_arg1
abbrev weights (c : Dev nD) : S384x128.Idx → EReal := m ((c : Thread nD τ).loc main_arg2)
abbrev bias (c : Dev nD) : S128.Idx → EReal := V m c main_arg3

/-- The first weight block is rows 0–127 of `W`. -/
theorem band0_at (c : Dev nD) (k q : Fin 128) :
    (V m c main_v14 : S128x128.Idx → EReal) (ix2 k q) = weights m c (ix2 ⟨0 + k.val, by omega⟩ q) := by
  have e : (V m c main_v14 : S128x128.Idx → EReal)
      = extractStridedSlice S128x128 ![0, 0] (weights m c) slices_S384x128_S128x128_0_0 := by
    dsimp only [Gen.V, Gen.hostOps0]; after_results
  rw [e]
  exact slice2_axis0_eq 0 (weights m c) slices_S384x128_S128x128_0_0 k q

/-- The second weight block is rows 128–255 of `W`. -/
theorem band1_at (c : Dev nD) (k q : Fin 128) :
    (V m c main_v15 : S128x128.Idx → EReal) (ix2 k q) = weights m c (ix2 ⟨128 + k.val, by omega⟩ q) := by
  have e : (V m c main_v15 : S128x128.Idx → EReal)
      = extractStridedSlice S128x128 ![128, 0] (weights m c) slices_S384x128_S128x128_128_0 := by
    dsimp only [Gen.V, Gen.hostOps0]; after_results
  rw [e]
  exact slice2_axis0_eq 128 (weights m c) slices_S384x128_S128x128_128_0 k q

/-- The third weight block is rows 256–383 of `W`. -/
theorem band2_at (c : Dev nD) (k q : Fin 128) :
    (V m c main_v16 : S128x128.Idx → EReal) (ix2 k q) = weights m c (ix2 ⟨256 + k.val, by omega⟩ q) := by
  have e : (V m c main_v16 : S128x128.Idx → EReal)
      = extractStridedSlice S128x128 ![256, 0] (weights m c) slices_S384x128_S128x128_256_0 := by
    dsimp only [Gen.V, Gen.hostOps0]; after_results
  rw [e]
  exact slice2_axis0_eq 256 (weights m c) slices_S384x128_S128x128_256_0 k q

/-! ## Where each window's block sits -/

theorem point_lt (t : Fin cfg0.N) : t.val < 100 := lt_of_lt_of_eq t.isLt N_0

/-- The printed index maps over the grid: the three row windows and the output move with the point along the
    rows and stay at column block 0; the weight and bias windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row `p` of point `t`'s block of an array of 400000 rows is row `4000 t + p` of the array. -/
abbrev rowOf (t : Fin cfg0.N) (p : Fin 4000) : Fin 400000 :=
  ⟨t.val * 4000 + p.val, by have := point_lt t; omega⟩

theorem src_at (c : Dev nD) (t : Fin cfg0.N) (p : Fin 4000) (k : Fin 128) :
    (iblk m c 0 t : S4000x128.Idx → EReal) (ix2 p k) = srcRows m c (ix2 (rowOf t p) k) := by
  obtain ⟨e0, e1, -⟩ := idx_facts t
  show srcRows m c (((cfg0.win 0).blk t).view.emb (ix2 p k)) = _
  refine congrArg (srcRows m c) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

theorem dst_at (c : Dev nD) (t : Fin cfg0.N) (p : Fin 4000) (k : Fin 128) :
    (iblk m c 1 t : S4000x128.Idx → EReal) (ix2 p k) = dstRows m c (ix2 (rowOf t p) k) := by
  obtain ⟨-, -, e0, e1, -⟩ := idx_facts t
  show dstRows m c (((cfg0.win 1).blk t).view.emb (ix2 p k)) = _
  refine congrArg (dstRows m c) (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * k.val = k.val; omega

theorem edge_at (c : Dev nD) (t : Fin cfg0.N) (p : Fin 4000) (k : Fin 128) :
    (iblk m c 2 t : S4000x128.Idx → EReal) (ix2 p k) = edgeRows m c (ix2 (rowOf t p) k) := by
  obtain ⟨-, -, -, -, e0, e1, -⟩ := idx_facts t
  show edgeRows m c (((cfg0.win 2).blk t).view.emb (ix2 p k)) = _
  refine congrArg (edgeRows m c) (funext fun a => Fin.ext ?_)
  match a with
  | ⟨0, _⟩ => show win0_2.index t (0 : Fin 2) * 4000 + 1 * p.val = t.val * 4000 + p.val; omega
  | ⟨1, _⟩ => show win0_2.index t (1 : Fin 2) * 128 + 1 * k.val = k.val; omega

theorem w0_at (c : Dev nD) (t : Fin cfg0.N) (k q : Fin 128) :
    (iblk m c 3 t : S128x128.Idx → EReal) (ix2 k q) = weights m c (ix2 ⟨0 + k.val, by omega⟩ q) := by
  obtain ⟨-, -, -, -, -, -, e0, e1, -⟩ := idx_facts t
  refine Eq.trans ?_ (band0_at m c k q)
  show (V m c main_v14 : S128x128.Idx → EReal) (((cfg0.win 3).blk t).view.emb (ix2 k q)) = _
  refine congrArg (V m c main_v14 : S128x128.Idx → EReal) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem w1_at (c : Dev nD) (t : Fin cfg0.N) (k q : Fin 128) :
    (iblk m c 4 t : S128x128.Idx → EReal) (ix2 k q) = weights m c (ix2 ⟨128 + k.val, by omega⟩ q) := by
  obtain ⟨-, -, -, -, -, -, -, -, e0, e1, -⟩ := idx_facts t
  refine Eq.trans ?_ (band1_at m c k q)
  show (V m c main_v15 : S128x128.Idx → EReal) (((cfg0.win 4).blk t).view.emb (ix2 k q)) = _
  refine congrArg (V m c main_v15 : S128x128.Idx → EReal) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem w2_at (c : Dev nD) (t : Fin cfg0.N) (k q : Fin 128) :
    (iblk m c 5 t : S128x128.Idx → EReal) (ix2 k q) = weights m c (ix2 ⟨256 + k.val, by omega⟩ q) := by
  obtain ⟨-, -, -, -, -, -, -, -, -, -, e0, e1, -⟩ := idx_facts t
  refine Eq.trans ?_ (band2_at m c k q)
  show (V m c main_v16 : S128x128.Idx → EReal) (((cfg0.win 5).blk t).view.emb (ix2 k q)) = _
  refine congrArg (V m c main_v16 : S128x128.Idx → EReal) (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

theorem bias_blk_at (c : Dev nD) (t : Fin cfg0.N) (q : Fin 128) :
    (iblk m c 6 t : S128.Idx → EReal) (ix1 q) = bias m c (ix1 q) := by
  obtain ⟨-, -, -, -, -, -, -, -, -, -, -, -, e0, -⟩ := idx_facts t
  show bias m c (((cfg0.win 6).blk t).view.emb (ix1 q)) = _
  refine congrArg (bias m c) (funext fun a => Fin.ext ?_)
  match a with
  | ⟨0, _⟩ => show win0_6.index t (0 : Fin 1) * 128 + 1 * q.val = q.val; omega

/-! ## The result array -/

/-- The edge update of every row, from the arrays the launch finds. -/
abbrev result (c : Dev nD) : S400000x128.Idx → EReal := fun i =>
  EdgeMlp.edgeMlp (srcRows m c) (dstRows m c) (edgeRows m c) (weights m c) (bias m c) (i 0) (i 1)

theorem hz2 : (![0, 0] : Fin 2 → Nat) = fun _ => 0 := funext fun a => by fin_cases a <;> rfl
theorem hz1 : (![0] : Fin 1 → Nat) = fun _ => 0 := funext fun a => by fin_cases a <;> rfl

/-- What point `t` writes back is its block of the edge update. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz2]
  simp only [View.ld_unit_zero (S := S4000x128) hz2, View.ld_unit_zero (S := S128x128) hz2, View.ld_unit_zero (S := S128) hz1]
  obtain ⟨-, -, -, -, -, -, -, -, -, -, -, -, -, e0, e1⟩ := idx_facts t
  funext j
  obtain ⟨p, q, rfl⟩ : ∃ (p : Fin 4000) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t) (iblk m c 6 t) (ix2 p q)
    = result m c (((cfg0.win 7).blk t).view.emb (ix2 p q))
  refine (Body.payload_at (iblk m c 0 t) (iblk m c 1 t) (iblk m c 2 t) (iblk m c 3 t) (iblk m c 4 t) (iblk m c 5 t) (iblk m c 6 t) p q).trans ?_
  have hr : (((cfg0.win 7).blk t).view.emb (ix2 p q)) 0 = rowOf t p := Fin.ext (by
    show win0_7.index t (0 : Fin 2) * 4000 + 1 * p.val = t.val * 4000 + p.val; omega)
  have hq : (((cfg0.win 7).blk t).view.emb (ix2 p q)) 1 = q := Fin.ext (by
    show win0_7.index t (1 : Fin 2) * 128 + 1 * q.val = q.val; omega)
  show _ = EdgeMlp.edgeMlp (srcRows m c) (dstRows m c) (edgeRows m c) (weights m c) (bias m c)
    ((((cfg0.win 7).blk t).view.emb (ix2 p q)) 0) ((((cfg0.win 7).blk t).view.emb (ix2 p q)) 1)
  rw [hr, hq]
  unfold EdgeMlp.edgeMlp EdgeMlp.bandDot
  simp only [src_at, dst_at, edge_at, w0_at, w1_at, w2_at, bias_blk_at]

/-- An index of the array is in point `t`'s block iff each coordinate is in the block's range on its axis. -/
theorem mem_blk (t : Fin cfg0.N) (i : S400000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v17).slice (win0_7.rect t)).set ↔ _
  rw [View.set_slice_whole, Rect.mem_set_unit]
  exact Iff.rfl

/-- Every row is in the block of the point `row / 4000`. -/
theorem cover (i : S400000x128.Idx) :
    ∃ t : Fin cfg0.N, (cfg0.win 7).flush t = true ∧ i ∈ ((cfg0.win 7).blk t).view.set := by
  have hi0 : (i 0).val < 400000 := (i 0).isLt
  have hi1 : (i 1).val < 128 := (i 1).isLt
  have hN : cfg0.N = 100 := N_0
  let t : Fin cfg0.N := ⟨(i 0).val / 4000, by rw [hN]; omega⟩
  have ht : t.val = (i 0).val / 4000 := rfl
  obtain ⟨-, -, -, -, -, -, -, -, -, -, -, -, -, e0, e1⟩ := idx_facts t
  refine ⟨t, flush0_7 t, ?_⟩
  rw [mem_blk]
  intro a
  match a with
  | ⟨0, _⟩ => show win0_7.index t (0 : Fin 2) * 4000 ≤ (i 0).val ∧ (i 0).val < win0_7.index t (0 : Fin 2) * 4000 + 4000; omega
  | ⟨1, _⟩ => show win0_7.index t (1 : Fin 2) * 128 ≤ (i 1).val ∧ (i 1).val < win0_7.index t (1 : Fin 2) * 128 + 128; omega

/-- The result array after the run is the edge update of every row. -/
theorem final (c : Dev nD) : (dats m 0 c).arrAt 7 cfg0.N = result m c :=
  (dats m 0 c).arrAt_eq_of_cover 7 (result m c) (fun t _ => flushed_eq m c t) cover

end Cert.KernelIdeal.EdgeValue

end
-- ==== Proof.ReferenceValue.lean ====
/-
  The reference's result, entry by entry, is the edge update of the gathered rows.

  The reference lays the gathered source rows, the gathered destination rows and the edge rows side
  by side (columns 0–127, 128–255, 256–383 of one 400000 × 384 array) and multiplies by `W`: entry
  (r, q) is the sum over the 384 columns, which splits into the three runs of 128; on each run the
  side-by-side row is one of the three pieces, and the rows of `W` it meets are the matching band.
-/
import proofs.«176621_j49572512530563_1_alg».proof.Proof.Gen.ReferenceIdeal.Read
import proofs.«176621_j49572512530563_1_alg».proof.Proof.EdgeMlpSpec

noncomputable section

namespace Cert.ReferenceIdeal.EdgeValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S400000x128, .f32⟩ : BufTy).Contents (Elt Ideal))
  (x2 : (⟨S384x128, .f32⟩ : BufTy).Contents (Elt Ideal)) (x3 : (⟨S128, .f32⟩ : BufTy).Contents (Elt Ideal))
  (x4 x5 : (⟨S400000, .i32⟩ : BufTy).Contents (Elt Ideal))

/-! ## The side-by-side row, run by run -/

/-- Columns 0–127 of the side-by-side array are the gathered source rows. -/
theorem joined_src (r : Fin 400000) (k : Fin 128) :
    val_main_v14 (F := Ideal) x0 x1 x4 x5 (ix2 r ⟨0 + k.val, by omega⟩) = val_main_v6 (F := Ideal) x0 x4 (ix2 r k) := by
  unfold val_main_v14
  exact concatenate_apply_piece (1 : Fin S400000x384.rank) ([⟨S400000x128, val_main_v6 (F := Ideal) x0 x4⟩, ⟨S400000x128, val_main_v13 (F := Ideal) x0 x5⟩, ⟨S400000x128, x1⟩] : List ((s : Shape) × (s.Idx → EReal))) concatenates_S400000x128_S400000x128_S400000x128_S400000x384_d1
    (ix2 r ⟨0 + k.val, by omega⟩) 0 (by simp) S400000x128 (val_main_v6 (F := Ideal) x0 x4) rfl rfl 0 rfl (ix2 r k)
    (fun b => by
      match b with
      | ⟨0, _⟩ => exact fun _ => rfl
      | ⟨1, _⟩ => exact fun h => absurd rfl h) rfl

/-- Columns 128–255 are the gathered destination rows. -/
theorem joined_dst (r : Fin 400000) (k : Fin 128) :
    val_main_v14 (F := Ideal) x0 x1 x4 x5 (ix2 r ⟨128 + k.val, by omega⟩) = val_main_v13 (F := Ideal) x0 x5 (ix2 r k) := by
  unfold val_main_v14
  exact concatenate_apply_piece (1 : Fin S400000x384.rank) ([⟨S400000x128, val_main_v6 (F := Ideal) x0 x4⟩, ⟨S400000x128, val_main_v13 (F := Ideal) x0 x5⟩, ⟨S400000x128, x1⟩] : List ((s : Shape) × (s.Idx → EReal))) concatenates_S400000x128_S400000x128_S400000x128_S400000x384_d1
    (ix2 r ⟨128 + k.val, by omega⟩) 1 (by simp) S400000x128 (val_main_v13 (F := Ideal) x0 x5) rfl rfl 128 rfl (ix2 r k)
    (fun b => by
      match b with
      | ⟨0, _⟩ => exact fun _ => rfl
      | ⟨1, _⟩ => exact fun h => absurd rfl h) rfl

/-- Columns 256–383 are the edge rows. -/
theorem joined_edge (r : Fin 400000) (k : Fin 128) :
    val_main_v14 (F := Ideal) x0 x1 x4 x5 (ix2 r ⟨256 + k.val, by omega⟩) = x1 (ix2 r k) := by
  unfold val_main_v14
  exact concatenate_apply_piece (1 : Fin S400000x384.rank) ([⟨S400000x128, val_main_v6 (F := Ideal) x0 x4⟩, ⟨S400000x128, val_main_v13 (F := Ideal) x0 x5⟩, ⟨S400000x128, x1⟩] : List ((s : Shape) × (s.Idx → EReal))) concatenates_S400000x128_S400000x128_S400000x128_S400000x384_d1
    (ix2 r ⟨256 + k.val, by omega⟩) 2 (by simp) S400000x128 x1 rfl rfl 256 rfl (ix2 r k)
    (fun b => by
      match b with
      | ⟨0, _⟩ => exact fun _ => rfl
      | ⟨1, _⟩ => exact fun h => absurd rfl h) rfl

/-! ## The product's and the bias's indices at entry (r, q) -/

theorem lidx_eq (r : Fin 400000) (q : Fin 128) (kk : Fin 384) : lidx_main_v15 (ix2 r q) kk = ix2 r kk :=
  funext fun a => Fin.ext (by match a with | ⟨0, _⟩ => rfl | ⟨1, _⟩ => rfl)
theorem ridx_eq (r : Fin 400000) (q : Fin 128) (kk : Fin 384) : ridx_main_v15 (ix2 r q) kk = ix2 kk q :=
  funext fun a => Fin.ext (by match a with | ⟨0, _⟩ => rfl | ⟨1, _⟩ => rfl)
theorem bias_idx_eq (r : Fin 400000) (q : Fin 128) : idx_main_v16 (idx_main_v17 (ix2 r q)) = ix1 q :=
  funext fun a => Fin.ext (by match a with | ⟨0, _⟩ => rfl)

/-! ## The result -/

/-- The reference's result array is the edge update of the gathered rows, the edge rows, `W` and the bias. -/
theorem result_eq :
    val_main_v19 (F := Ideal) x0 x1 x2 x3 x4 x5
      = fun i => EdgeMlp.edgeMlp (val_main_v6 (F := Ideal) x0 x4) (val_main_v13 (F := Ideal) x0 x5) x1 x2 x3 (i 0) (i 1) := by
  funext i
  obtain ⟨r, q, rfl⟩ : ∃ (r : Fin 400000) (q : Fin 128), i = ix2 r q := ⟨i 0, i 1, eq_ix2 i⟩
  rw [val_main_v19_apply, val_main_v18_apply, val_main_v15_apply, val_main_v17_apply, val_main_v16_apply,
    val_main_call0_v0_apply, val_main_call0_cst_apply, EdgeMlp.sum_three_bands]
  simp only [lidx_eq, ridx_eq, bias_idx_eq, joined_src, joined_dst, joined_edge, Ideal.maximumf_def, Ideal.addf_def, Ideal.ofBits_def]
  rfl

end Cert.ReferenceIdeal.EdgeValue

end
-- ==== Proof.GatheredRows.lean ====
/-
  The kernel's result in terms of the program's arguments.

  Before the launch the kernel's program gathers rows of the node-feature table at the source and at the
  destination indices with the very operations the reference uses (a negative index moved up by the
  table's 50000 rows, then the row gather), so the two gathered arrays the launch finds are the
  reference's two gather stages of the same arguments; the edge rows, `W` and the bias reach the launch
  untouched.
-/
import proofs.«176621_j49572512530563_1_alg».proof.Proof.KernelValue
import proofs.«176621_j49572512530563_1_alg».proof.Proof.Gen.ReferenceIdeal.Read

noncomputable section

namespace Cert.KernelIdeal.EdgeValue

open Idealize.ShloMosaic Idealize.ShloMosaic.TcCoe Idealize.SL.Sem

variable (m : (ℓ : Loc Cert.KernelIdeal.nD Cert.KernelIdeal.τ Cert.KernelIdeal.sig) → Buf (Elt Ideal) ℓ)

/-- The edge update depends on its row arrays and bias only through their values. -/
theorem edgeMlp_congr {R : Nat} {s s' d d' e e' : (⟨2, ![R, 128]⟩ : Shape).Idx → EReal} {b b' : (⟨1, ![128]⟩ : Shape).Idx → EReal}
    (hs : s = s') (hd : d = d') (he : e = e') (hb : b = b') (W : (⟨2, ![384, 128]⟩ : Shape).Idx → EReal) (r : Fin R) (q : Fin 128) :
    EdgeMlp.edgeMlp s d e W b r q = EdgeMlp.edgeMlp s' d' e' W b' r q := by
  subst hs hd he hb; rfl

/-- The gathered source rows at the launch are the reference's source gather of the same table and indices. -/
theorem srcRows_eq (c : Dev Cert.KernelIdeal.nD) :
    srcRows m c = Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) := by
  show (Cert.KernelIdeal.Gen.V m c Cert.KernelIdeal.main_v6 : Cert.KernelIdeal.S400000x128.Idx → EReal) = _
  dsimp only [Cert.KernelIdeal.Gen.V, Cert.KernelIdeal.Gen.hostOps0]; after_results <;> rfl

/-- The gathered destination rows at the launch are the reference's destination gather. -/
theorem dstRows_eq (c : Dev Cert.KernelIdeal.nD) :
    dstRows m c = Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) := by
  show (Cert.KernelIdeal.Gen.V m c Cert.KernelIdeal.main_v13 : Cert.KernelIdeal.S400000x128.Idx → EReal) = _
  dsimp only [Cert.KernelIdeal.Gen.V, Cert.KernelIdeal.Gen.hostOps0]; after_results <;> rfl

/-- The kernel's result array is the edge update of the reference's two gather stages, the edge rows, `W` and
    the bias, all of the program's own arguments. -/
theorem result_of_args (c : Dev Cert.KernelIdeal.nD) :
    result m c = fun i => EdgeMlp.edgeMlp
      (Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)))
      (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0) (i 1) := by
  have e1 : edgeRows m c = (m ((c.tc : Thread Cert.KernelIdeal.nD Cert.KernelIdeal.τ).loc Cert.KernelIdeal.main_arg1)) := Cert.KernelIdeal.Gen.V_main_arg1 m c
  have e3 : bias m c = (m ((c.tc : Thread Cert.KernelIdeal.nD Cert.KernelIdeal.τ).loc Cert.KernelIdeal.main_arg3)) := Cert.KernelIdeal.Gen.V_main_arg3 m c
  funext i
  exact edgeMlp_congr (srcRows_eq m c) (dstRows_eq m c) e1 e3 (weights m c) (i 0) (i 1)

end Cert.KernelIdeal.EdgeValue

end
-- ==== Proof.lean ====
/-
  The certificate of the fused edge update against its reference.

  Both programs first gather, with the same operations, the node-feature rows at each edge's source and
  destination index.  The reference lays those two 128-wide rows and the edge's own 128-wide feature
  row side by side, multiplies the 384-wide row by `W`, adds the bias and clamps below at zero.  The
  kernel never forms the 384-wide row: it multiplies the three 128-wide rows by the three 128-row bands
  of `W` on the matrix unit, 4000 edges per grid point, and adds the three products, the bias, and clamps.
  A sum over 384 consecutive indices is the sum of its three runs of 128 — commutativity and associativity
  of addition only, so the identity holds on the extended reals and the finiteness of the inputs is never
  used.  The narrowing of the matrix unit's operands to bf16 is the identity at exact arithmetic.

  The three frames are the generated ones (the reference's is its generated run with the result dropped);
  the idealization rewrote no operation, so `preserves` is trivial.
-/
import proofs.«176621_j49572512530563_1_alg».proof.Defs
import proofs.«176621_j49572512530563_1_alg».proof.Proof.Gen.Kernel
import proofs.«176621_j49572512530563_1_alg».proof.Proof.Gen.Kernel.Skeleton
import proofs.«176621_j49572512530563_1_alg».proof.Proof.Gen.Kernel.Launch
import proofs.«176621_j49572512530563_1_alg».proof.Proof.Gen.Kernel.Points
import proofs.«176621_j49572512530563_1_alg».proof.Proof.Gen.Kernel.Frame
import proofs.«176621_j49572512530563_1_alg».proof.Proof.Gen.KernelIdeal
import proofs.«176621_j49572512530563_1_alg».proof.Proof.Gen.KernelIdeal.Skeleton
import proofs.«176621_j49572512530563_1_alg».proof.Proof.Gen.KernelIdeal.Launch
import proofs.«176621_j49572512530563_1_alg».proof.Proof.Gen.KernelIdeal.Points
import proofs.«176621_j49572512530563_1_alg».proof.Proof.Gen.KernelIdeal.Frame
import proofs.«176621_j49572512530563_1_alg».proof.Proof.Gen.ReferenceIdeal
import proofs.«176621_j49572512530563_1_alg».proof.Proof.Gen.Pre_finite_inputs
import proofs.«176621_j49572512530563_1_alg».proof.Proof.Gen.KernelIdeal.Value
import proofs.«176621_j49572512530563_1_alg».proof.Proof.Gen.ReferenceIdeal.Run
import proofs.«176621_j49572512530563_1_alg».proof.Proof.Gen.ReferenceIdeal.Read
import proofs.«176621_j49572512530563_1_alg».proof.Proof.KernelValue
import proofs.«176621_j49572512530563_1_alg».proof.Proof.ReferenceValue
import proofs.«176621_j49572512530563_1_alg».proof.Proof.GatheredRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both result arrays are the edge update of the same gathered rows, edge rows, `W` and bias. -/
theorem algebraic : Cert.algebraic_KernelIdeal_ReferenceIdeal := by
  intro m ρ m' ρ' _ hagree
  refine ⟨fun c => Cert.KernelIdeal.EdgeValue.result m c, ?_, ?_⟩
  · exact (θ_run Cert.KernelIdeal.defs _ _).mono
      (fun r h c => ⟨(h c).1.trans (Cert.KernelIdeal.EdgeValue.final m c), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v19_eq, Cert.ReferenceIdeal.EdgeValue.result_eq,
      (hagree c).1, (hagree c).2.1, (hagree c).2.2.1, (hagree c).2.2.2.1, (hagree c).2.2.2.2.1, (hagree c).2.2.2.2.2]
    exact (Cert.KernelIdeal.EdgeValue.result_of_args m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
